-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000 : Shape := ⟨1, ![1000000]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S50000x64 .f32) (main_arg1 : IVec S1000000 32) (main_arg2 : IVec S1000000 32) (main_arg3 : FVec F S64x64 .f32) (main_arg4 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S50000x64 : Shape := ⟨2, ![50000, 64]⟩
abbrev S1000000 : Shape := ⟨1, ![1000000]⟩
abbrev S64x64 : Shape := ⟨2, ![64, 64]⟩
abbrev S_ : Shape := ⟨0, ![]⟩
abbrev S1000000x1 : Shape := ⟨2, ![1000000, 1]⟩
abbrev S1000000x64 : Shape := ⟨2, ![1000000, 64]⟩
abbrev S5000x64 : Shape := ⟨2, ![5000, 64]⟩

abbrev nBuf : Space → Nat
  | .hbm => 21
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S50000x64, .f32⟩
  | .hbm, ⟨16, _⟩ => ⟨S1000000x1, .i32⟩
  | .hbm, ⟨17, _⟩ => ⟨S50000x64, .f32⟩
  | .hbm, ⟨18, _⟩ => ⟨S64x64, .f32⟩
  | .hbm, ⟨19, _⟩ => ⟨S64x64, .f32⟩
  | .hbm, ⟨20, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S1000000 : Shape := ⟨1, ![1000000]⟩
abbrev S64x64 : Shape := ⟨2, ![64, 64]⟩
abbrev S_ : Shape := ⟨0, ![]⟩
abbrev S1000000x1 : Shape := ⟨2, ![1000000, 1]⟩
abbrev S1000000x64 : Shape := ⟨2, ![1000000, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S50000x64, .f32⟩
  | .hbm, ⟨16, _⟩ => ⟨S1000000x1, .i32⟩
  | .hbm, ⟨17, _⟩ => ⟨S50000x64, .f32⟩
  | .hbm, ⟨18, _⟩ => ⟨S50000x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x64_S50000x64_1_1_0_0_n_n_wf : DotDims.WF S50000x64 S64x64 S50000x64 [1] [1] [0] [0] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Layer.lean ====
/-
  One graph-convolution layer as a function of its arrays, entry by entry.

  With node features x : [50000, 64], the aggregated neighbour features a : [50000, 64] (whatever they are) and the
  two weight matrices U, W : [64, 64] stored output-row first, the layer's value at node n and output feature o is

      max ( ∑ q < 64, x (n, q) · U (o, q)  +  ∑ q < 64, a (n, q) · W (o, q) ,  0 ).

  The same value written with the weights stored input-row first (the transposed matrices Uᵀ, Wᵀ : [64, 64]),

      max ( ∑ q < 64, x (n, q) · Uᵀ (q, o)  +  ∑ q < 64, a (n, q) · Wᵀ (q, o) ,  0 ),

  is the form a plain rows-by-columns product computes; the two agree because a transposed matrix read at (q, o) is
  the matrix read at (o, q). No law of arithmetic beyond that re-indexing is used, so nothing here asks the entries
  to be finite.
-/
import Idealize.ShloMosaic.PureOps.Ideal.Laws
import Idealize.ShloMosaic.Lib.ValueIdx
import Idealize.ShloMosaic.Lib.ValueLayout

noncomputable section

open scoped BigOperators

namespace Cert.Gcn

open Idealize.ShloMosaic Idealize.ShloMosaic.ValueIdx

/-- Node-by-feature arrays and weight matrices, at the ideal values. -/
abbrev Nodes : Type := FVec Ideal ⟨2, ![50000, 64]⟩ .f32
abbrev Weights : Type := FVec Ideal ⟨2, ![64, 64]⟩ .f32

/-- The layer with weights stored output-row first: relu (x · Uᵀ + a · Wᵀ), entry by entry. -/
def layer (x a : Nodes) (U W : Weights) : Nodes := fun i =>
  max ((∑ q : Fin 64, x (ix2 (i 0) q) * U (ix2 (i 1) q)) + ∑ q : Fin 64, a (ix2 (i 0) q) * W (ix2 (i 1) q)) 0

/-- The layer with weights stored input-row first: relu (x · Ut + a · Wt), entry by entry. -/
def layerCols (x a : Nodes) (Ut Wt : Weights) : Nodes := fun i =>
  max ((∑ q : Fin 64, x (ix2 (i 0) q) * Ut (ix2 q (i 1))) + ∑ q : Fin 64, a (ix2 (i 0) q) * Wt (ix2 q (i 1))) 0

/-- Transposing both weight matrices turns the second form into the first. -/
theorem layerCols_transpose (x a : Nodes) (U W : Weights)
    (h : (⟨2, ![64, 64]⟩ : Shape).Transposes [1, 0] ⟨2, ![64, 64]⟩) :
    layerCols x a (transpose ⟨2, ![64, 64]⟩ [1, 0] U h) (transpose ⟨2, ![64, 64]⟩ [1, 0] W h) = layer x a U W := by
  funext i
  -- term by term under both sums: the transposed matrix at (q, o) is the matrix at (o, q)
  exact congrArg (max · 0) (congrArg₂ (· + ·)
    (Finset.sum_congr rfl fun q _ => congrArg (x (ix2 (i 0) q) * ·) (transpose_ix2_apply U h q (i 1)))
    (Finset.sum_congr rfl fun q _ => congrArg (a (ix2 (i 0) q) * ·) (transpose_ix2_apply W h q (i 1))))

end Cert.Gcn

end
-- ==== Proof.Block.lean ====
/-
  What the kernel body computes on one block of 5000 nodes, entry by entry.

  The body loads a block xb of node features and the matching block ab of aggregated features (5000 rows each), and
  the two weight matrices as it finds them, stored input-row first (Ut, Wt : [64, 64]). It narrows all four to
  bf16 — no change at the ideal values —, forms the two rows-by-columns products into zero accumulators, adds them
  and clamps below at zero. So at row r, output feature o of the block it stores

      max ( ∑ q < 64, xb (r, q) · Ut (q, o)  +  ∑ q < 64, ab (r, q) · Wt (q, o) ,  0 ).
-/
import proofs.«157760_j4303557230928_1_alg».proof.Proof.Gen.KernelIdeal.Skeleton
import proofs.«157760_j4303557230928_1_alg».proof.Proof.LibDotRowsCols
import proofs.«157760_j4303557230928_1_alg».proof.Proof.Layer
import Idealize.ShloMosaic.Lib.Pipeline.Value

noncomputable section

open scoped BigOperators

namespace Cert.Gcn

open Idealize.ShloMosaic Idealize.ShloMosaic.ValueIdx Cert.KernelIdeal Cert.KernelIdeal.Gen

/-- The printed product contracts the left operand's columns with the right operand's rows. -/
theorem blockDot_rowsCols : Cert.Lib.DotRowsCols.RowsCols dot_S5000x64_S64x64_S5000x64_1_0_0_1_n_n :=
  ⟨rfl, rfl, rfl, rfl, rfl, rfl⟩

/-- The stored block, at row `j 0` and output feature `j 1`. -/
theorem blockPayload_apply (xb ab : Vec Ideal S5000x64 .f32) (ut wt : Vec Ideal S64x64 .f32) (j : S5000x64.Idx) :
    k0_pay1 (F := Ideal) xb ab ut wt j
      = max ((∑ q : Fin 64, xb (ix2 (j 0) q) * ut (ix2 q (j 1))) + ∑ q : Fin 64, ab (ix2 (j 0) q) * wt (ix2 q (j 1))) 0 := by
  unfold k0_pay1
  -- the shape casts to the same shape are identities; so are the narrowings, at the ideal values
  rw [shapeCast_self ut, shapeCast_self ab, shapeCast_self wt]
  show max (matmul (F := Ideal) dot_S5000x64_S64x64_S5000x64_1_0_0_1_n_n none (truncf .bf16 xb bitsLt_bf16_f32)
        (truncf .bf16 ut bitsLt_bf16_f32) (constant S5000x64 .f32 0x00000000#32) j
      + matmul (F := Ideal) dot_S5000x64_S64x64_S5000x64_1_0_0_1_n_n none (truncf .bf16 ab bitsLt_bf16_f32)
        (truncf .bf16 wt bitsLt_bf16_f32) (constant S5000x64 .f32 0x00000000#32) j)
      (Ideal.ofBits .f32 0x00000000#32) = _
  -- each product into zero is the plain sum over the shared axis; the clamp's bound is the real zero
  rw [blockDot_rowsCols.matmul_zero_apply, blockDot_rowsCols.matmul_zero_apply, Ideal.ofBits_zero_f32]
  rfl

/-- A stored block entry is the layer's entry, once each loaded block entry it reads is known to be the entry of
    the whole array that the layer reads there: row r of the block is node i 0 of the arrays, and the weight matrices
    are read at the same column. -/
theorem blockPayload_eq_layerCols (X A : Nodes) (Ut Wt : Weights)
    (xb ab : Vec Ideal S5000x64 .f32) (ut wt : Vec Ideal S64x64 .f32) (j : S5000x64.Idx) (i : S50000x64.Idx)
    (hx : ∀ q : Fin 64, xb (ix2 (j 0) q) = X (ix2 (i 0) q))
    (ha : ∀ q : Fin 64, ab (ix2 (j 0) q) = A (ix2 (i 0) q))
    (hu : ∀ q : Fin 64, ut (ix2 q (j 1)) = Ut (ix2 q (i 1)))
    (hw : ∀ q : Fin 64, wt (ix2 q (j 1)) = Wt (ix2 q (i 1))) :
    k0_pay1 (F := Ideal) xb ab ut wt j = layerCols X A Ut Wt i := by
  rw [blockPayload_apply]
  exact congrArg (max · 0) (congrArg₂ (· + ·)
    (Finset.sum_congr rfl fun q _ => congrArg₂ (· * ·) (hx q) (hu q))
    (Finset.sum_congr rfl fun q _ => congrArg₂ (· * ·) (ha q) (hw q)))

end Cert.Gcn

end
-- ==== Proof.KernelBlocks.lean ====
/-
  The kernel's result array as one function of the arrays the region reads.

  The output window and the two node-indexed input windows move together, ten blocks of 5000 rows; the two weight
  windows are the whole 64 × 64 matrices at every point. So row r of block t is node 5000·t + r in all three
  node-indexed arrays, and what point t writes back is block t of the layer's value computed from the WHOLE arrays.
  The ten blocks cover every node (node n lies in block n / 5000), so after the run the result array is the layer's
  value everywhere.
-/
import proofs.«157760_j4303557230928_1_alg».proof.Proof.Gen.KernelIdeal.Value
import proofs.«157760_j4303557230928_1_alg».proof.Proof.Block
import proofs.«157760_j4303557230928_1_alg».proof.Proof.Layer
import Idealize.ShloMosaic.Lib.Pipeline.Value

noncomputable section

open scoped BigOperators

namespace Cert.Gcn.KernelSide

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem zeroOffsets : (![0, 0] : Fin 2 → Nat) = fun _ => 0 := funext fun a => by fin_cases a <;> rfl

/-- The printed index maps over the ten grid points: the node-indexed windows sit at block row t, the weight windows
    at block (0, 0). -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Where each window's block sits in its array -/

/-- The node-features window: rows 5000·t …, all 64 columns. -/
theorem featuresBlock_emb (t : Fin cfg0.N) (r : Fin 5000) (q : Fin 64) (h : t.val * 5000 + r.val < 50000) :
    ((cfg0.win 0).blk t).view.emb (ix2 r q) = ix2 (⟨t.val * 5000 + r.val, h⟩ : Fin 50000) q := by
  obtain ⟨e0, e1, -⟩ := blockIndices t
  funext a; apply Fin.ext
  match a with
  | ⟨0, _⟩ =>
    show win0_0.index t (0 : Fin 2) * 5000 + 1 * r.val = t.val * 5000 + r.val
    rw [e0, Nat.one_mul]
  | ⟨1, _⟩ =>
    show win0_0.index t (1 : Fin 2) * 64 + 1 * q.val = q.val
    rw [e1, Nat.zero_mul, Nat.zero_add, Nat.one_mul]

/-- The aggregated-features window: the same rows. -/
theorem aggregatedBlock_emb (t : Fin cfg0.N) (r : Fin 5000) (q : Fin 64) (h : t.val * 5000 + r.val < 50000) :
    ((cfg0.win 1).blk t).view.emb (ix2 r q) = ix2 (⟨t.val * 5000 + r.val, h⟩ : Fin 50000) q := by
  obtain ⟨-, -, e0, e1, -⟩ := blockIndices t
  funext a; apply Fin.ext
  match a with
  | ⟨0, _⟩ =>
    show win0_1.index t (0 : Fin 2) * 5000 + 1 * r.val = t.val * 5000 + r.val
    rw [e0, Nat.one_mul]
  | ⟨1, _⟩ =>
    show win0_1.index t (1 : Fin 2) * 64 + 1 * q.val = q.val
    rw [e1, Nat.zero_mul, Nat.zero_add, Nat.one_mul]

/-- The first weight window: the whole matrix. -/
theorem weightsBlock_emb (t : Fin cfg0.N) (q o : Fin 64) :
    ((cfg0.win 2).blk t).view.emb (ix2 q o) = ix2 q o := by
  obtain ⟨-, -, -, -, e0, e1, -⟩ := blockIndices t
  funext a; apply Fin.ext
  match a with
  | ⟨0, _⟩ =>
    show win0_2.index t (0 : Fin 2) * 64 + 1 * q.val = q.val
    rw [e0, Nat.zero_mul, Nat.zero_add, Nat.one_mul]
  | ⟨1, _⟩ =>
    show win0_2.index t (1 : Fin 2) * 64 + 1 * o.val = o.val
    rw [e1, Nat.zero_mul, Nat.zero_add, Nat.one_mul]

/-- The second weight window: the whole matrix. -/
theorem weightsBlock'_emb (t : Fin cfg0.N) (q o : Fin 64) :
    ((cfg0.win 3).blk t).view.emb (ix2 q o) = ix2 q o := by
  obtain ⟨-, -, -, -, -, -, e0, e1, -⟩ := blockIndices t
  funext a; apply Fin.ext
  match a with
  | ⟨0, _⟩ =>
    show win0_3.index t (0 : Fin 2) * 64 + 1 * q.val = q.val
    rw [e0, Nat.zero_mul, Nat.zero_add, Nat.one_mul]
  | ⟨1, _⟩ =>
    show win0_3.index t (1 : Fin 2) * 64 + 1 * o.val = o.val
    rw [e1, Nat.zero_mul, Nat.zero_add, Nat.one_mul]

/-- The result window: rows 5000·t …, all 64 columns. -/
theorem resultBlock_emb (t : Fin cfg0.N) (r : Fin 5000) (o : Fin 64) (h : t.val * 5000 + r.val < 50000) :
    ((cfg0.win 4).blk t).view.emb (ix2 r o) = ix2 (⟨t.val * 5000 + r.val, h⟩ : Fin 50000) o := by
  obtain ⟨-, -, -, -, -, -, -, -, e0, e1⟩ := blockIndices t
  funext a; apply Fin.ext
  match a with
  | ⟨0, _⟩ =>
    show win0_4.index t (0 : Fin 2) * 5000 + 1 * r.val = t.val * 5000 + r.val
    rw [e0, Nat.one_mul]
  | ⟨1, _⟩ =>
    show win0_4.index t (1 : Fin 2) * 64 + 1 * o.val = o.val
    rw [e1, Nat.zero_mul, Nat.zero_add, Nat.one_mul]

/-- A row of a block stays inside the array: 5000·t + r < 50000 for t < 10, r < 5000. -/
theorem row_lt (t : Fin cfg0.N) (r : Fin 5000) : t.val * 5000 + r.val < 50000 := by
  have ht : t.val < 10 := t.isLt
  have hr : r.val < 5000 := r.isLt
  omega

/-! ## A block of an array, read at an entry

The arrays are kept as variables here: what they hold plays no part in where a block's entry comes from. -/

section Blocks
variable (c : Dev nD)

theorem featuresBlock_read (A : Buf (Elt Ideal) ((c : Thread nD τ).loc (Pipeline.arrRef spec0 0)))
    (t : Fin cfg0.N) (r : Fin 5000) (q : Fin 64) :
    ((cfg0.win 0).blk t).view.read (Elt Ideal) A (ix2 r q) = A (ix2 (⟨t.val * 5000 + r.val, row_lt t r⟩ : Fin 50000) q) := by
  show A (((cfg0.win 0).blk t).view.emb (ix2 r q)) = _
  rw [featuresBlock_emb t r q (row_lt t r)]

theorem aggregatedBlock_read (A : Buf (Elt Ideal) ((c : Thread nD τ).loc (Pipeline.arrRef spec0 1)))
    (t : Fin cfg0.N) (r : Fin 5000) (q : Fin 64) :
    ((cfg0.win 1).blk t).view.read (Elt Ideal) A (ix2 r q) = A (ix2 (⟨t.val * 5000 + r.val, row_lt t r⟩ : Fin 50000) q) := by
  show A (((cfg0.win 1).blk t).view.emb (ix2 r q)) = _
  rw [aggregatedBlock_emb t r q (row_lt t r)]

theorem weightsBlock_read (A : Buf (Elt Ideal) ((c : Thread nD τ).loc (Pipeline.arrRef spec0 2)))
    (t : Fin cfg0.N) (q o : Fin 64) :
    ((cfg0.win 2).blk t).view.read (Elt Ideal) A (ix2 q o) = A (ix2 q o) := by
  show A (((cfg0.win 2).blk t).view.emb (ix2 q o)) = _
  rw [weightsBlock_emb t q o]

theorem weightsBlock'_read (A : Buf (Elt Ideal) ((c : Thread nD τ).loc (Pipeline.arrRef spec0 3)))
    (t : Fin cfg0.N) (q o : Fin 64) :
    ((cfg0.win 3).blk t).view.read (Elt Ideal) A (ix2 q o) = A (ix2 q o) := by
  show A (((cfg0.win 3).blk t).view.emb (ix2 q o)) = _
  rw [weightsBlock'_emb t q o]

/-- The entry the body stores at row r, feature o of point t's block is the layer's entry at node 5000·t + r. -/
theorem stored_apply
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (t : Fin cfg0.N) (r : Fin 5000) (o : Fin 64) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (ix2 r o)
      = layerCols A0 A1 A2 A3 (ix2 (⟨t.val * 5000 + r.val, row_lt t r⟩ : Fin 50000) o) :=
  blockPayload_eq_layerCols A0 A1 A2 A3
    (((cfg0.win 0).blk t).view.read (Elt Ideal) A0) (((cfg0.win 1).blk t).view.read (Elt Ideal) A1)
    (((cfg0.win 2).blk t).view.read (Elt Ideal) A2) (((cfg0.win 3).blk t).view.read (Elt Ideal) A3) (ix2 r o)
    (ix2 (⟨t.val * 5000 + r.val, row_lt t r⟩ : Fin 50000) o)
    (fun q => featuresBlock_read c A0 t r q) (fun q => aggregatedBlock_read c A1 t r q)
    (fun q => weightsBlock_read c A2 t q o) (fun q => weightsBlock'_read c A3 t q o)

/-- The stored block, as the pipeline writes it back, is the block of the layer's value at point t. -/
theorem storedBlock_eq
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (t : Fin cfg0.N) :
    (cfg0.win 4).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (layerCols A0 A1 A2 A3) := by
  funext j
  obtain ⟨r, o, rfl⟩ : ∃ (r : Fin 5000) (o : Fin 64), j = ix2 r o := ⟨j 0, j 1, eq_ix2 j⟩
  show k0_pay1 (F := Ideal) _ _ _ _ (ix2 r o) = layerCols A0 A1 A2 A3 (((cfg0.win 4).blk t).view.emb (ix2 r o))
  rw [resultBlock_emb t r o (row_lt t r)]
  exact stored_apply c A0 A1 A2 A3 t r o

end Blocks

end Cert.Gcn.KernelSide

end
-- ==== Proof.Mailbox.lean ====
/-
  The aggregated neighbour features, as one function of the node features and the two edge-index arrays.

  For each of the 1000000 edges e the source word src e is first wrapped (a negative word has 50000 added), then
  row e of a [1000000, 64] array is gathered from the node features at that row (the gather clamps an out-of-range
  row into range), and finally the gathered rows are added into a zero [50000, 64] array at the rows the destination
  words dst name (an out-of-range destination adds nothing). This is the composite  segment_sum (x[src], dst).

  Both programs of this certificate compute it with the same six host operations, so it is kept as ONE term and is
  never opened: whatever it is, it is the same array on both sides. The dimension records of the gather and the
  scatter and the three broadcast side conditions are parameters, so that each program's own records fit.
-/
import Idealize.ShloMosaic.PureOps
import Idealize.ShloMosaic.PureOps.Ideal

noncomputable section

namespace Cert.Gcn

open Idealize.ShloMosaic

/-- segment_sum (x[src], dst) over 50000 nodes of 64 features and 1000000 edges. -/
def aggregate
    (gd : GatherDims ⟨2, ![50000, 64]⟩ ⟨2, ![1000000, 1]⟩ ⟨2, ![1000000, 64]⟩)
    (sd : ScatterDims ⟨2, ![50000, 64]⟩ ⟨2, ![1000000, 1]⟩ ⟨2, ![1000000, 64]⟩)
    (bEdges : (⟨0, ![]⟩ : Shape).BroadcastsInDim ⟨1, ![1000000]⟩ (![] : Fin 0 → Fin 1))
    (bColumn : (⟨1, ![1000000]⟩ : Shape).BroadcastsInDim ⟨2, ![1000000, 1]⟩ (![0] : Fin 1 → Fin 2))
    (bNodes : (⟨0, ![]⟩ : Shape).BroadcastsInDim ⟨2, ![50000, 64]⟩ (![] : Fin 0 → Fin 2))
    (x : FVec Ideal ⟨2, ![50000, 64]⟩ .f32)
    (src dst : IVec ⟨1, ![1000000]⟩ 32) : FVec Ideal ⟨2, ![50000, 64]⟩ .f32 :=
  Host.scatterAdd (F := Ideal) sd
    (broadcastInDim ⟨2, ![50000, 64]⟩ ![] bNodes (constant (F := Ideal) ⟨0, ![]⟩ .f32 0x00000000#32))
    (broadcastInDim ⟨2, ![1000000, 1]⟩ ![0] bColumn dst)
    (Host.gather gd x
      (broadcastInDim ⟨2, ![1000000, 1]⟩ ![0] bColumn
        (select (cmpi .slt src (broadcastInDim ⟨1, ![1000000]⟩ ![] bEdges (constantI ⟨0, ![]⟩ 32 0#32)))
          (addi src (broadcastInDim ⟨1, ![1000000]⟩ ![] bEdges (constantI ⟨0, ![]⟩ 32 50000#32)))
          src)))

end Cert.Gcn

end
-- ==== Proof.KernelValue.lean ====
/-
  The kernel's result array after the run: the layer's value, of the arguments as launched.

  What point t writes back is block t of the layer's value over the arrays the region reads (the blocks' entries
  are those arrays' entries, whatever the arrays hold). The ten blocks cover every node — node n lies in block
  n / 5000 —, so after the run the result array is that value everywhere. The arrays the region reads are the node
  features as launched, the aggregated features the host operations in front of the region computed, and the two
  weight matrices transposed by those operations; undoing the transposes gives the layer with the weights as
  launched.
-/
import proofs.«157760_j4303557230928_1_alg».proof.Proof.Gen.KernelIdeal.Value
import proofs.«157760_j4303557230928_1_alg».proof.Proof.KernelBlocks
import proofs.«157760_j4303557230928_1_alg».proof.Proof.Mailbox
import Idealize.ShloMosaic.Lib.Pipeline.Value
import Idealize.ShloMosaic.Lib.StableHlo.Run

noncomputable section

open scoped BigOperators

namespace Cert.Gcn.KernelSide

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What point t writes back is block t of the layer's value over the arrays as the region finds them. -/
theorem flushed_eq (c : Dev nD) (t : Fin cfg0.N) :
    (dats m 0 c).flushed 4 t = ((cfg0.win 4).blk t).view.read (Elt Ideal)
      (layerCols (V m c (Pipeline.arrRef spec0 0)) (V m c (Pipeline.arrRef spec0 1))
        (V m c (Pipeline.arrRef spec0 2)) (V m c (Pipeline.arrRef spec0 3))) := by
  rw [flushed4]
  unfold out0_4 iblk
  rw [View.canon_unit_zero zeroOffsets]
  simp only [View.ld_unit_zero (S := S5000x64) zeroOffsets, View.ld_unit_zero (S := S64x64) zeroOffsets]
  exact storedBlock_eq c _ _ _ _ t

/-- An index of the result array is in point t's block iff each coordinate is in the block's range on its axis. -/
theorem mem_block (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0).slice (win0_4.rect t)).set ↔ _
  rw [View.set_slice_whole, Rect.mem_set_unit]
  exact Iff.rfl

/-- Every block row 0 … 9 of the result array is some point's. -/
theorem blockOnto : ∀ q : Fin 10, ∃ t : Fin cfg0.N, win0_4.index t = ![q.val, 0] :=
  (by decide +kernel : ∀ q : Fin 10, ∃ t : Fin grid0.N, win0_4.index t = ![q.val, 0])

/-- Every index of the result array lies in some point's block: node n in block row n / 5000. -/
theorem covered (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := blockOnto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    rw [q0]; omega
  | ⟨1, _⟩ =>
    show win0_4.index t (1 : Fin 2) * 64 ≤ (i 1).val ∧ (i 1).val < win0_4.index t (1 : Fin 2) * 64 + 64
    rw [q1]; omega

/-- The result array after the run, over the arrays as the region finds them. -/
theorem final_region (c : Dev nD) :
    (dats m 0 c).arrAt 4 cfg0.N
      = layerCols (V m c (Pipeline.arrRef spec0 0)) (V m c (Pipeline.arrRef spec0 1))
          (V m c (Pipeline.arrRef spec0 2)) (V m c (Pipeline.arrRef spec0 3)) :=
  (dats m 0 c).arrAt_eq_of_cover 4 _ (fun t _ => flushed_eq m c t) covered

/-! ## The arrays the region reads, of the arguments as launched -/

/-- No host operation writes the node features. -/
theorem features_eq (c : Dev nD) :
    V m c (Pipeline.arrRef spec0 0) = m ((c : Thread nD τ).loc main_arg0) := V_main_arg0 m c

/-- The host operations in front of the region leave the aggregated features in the second window's array. -/
theorem aggregated_eq (c : Dev nD) :
    (V m c (Pipeline.arrRef spec0 1) : S50000x64.Idx → EReal)
      = aggregate gather_S50000x64_S1000000x1_S1000000x64_1_0_n_n_0_1_164 scatter_S50000x64_S1000000x1_S1000000x64_1_0_0_1
          Facts₀.bcast_S_S1000000 Facts₀.bcast_S1000000_S1000000x1_0 Facts₀.bcast_S_S50000x64
          (m ((c : Thread nD τ).loc main_arg0)) (m ((c : Thread nD τ).loc main_arg1)) (m ((c : Thread nD τ).loc main_arg2)) := by
  show (V m c main_call0_v9 : S50000x64.Idx → EReal) = _
  dsimp only [Gen.V, Gen.hostOps0]
  after_results
  rfl

/-- They leave the first weight matrix transposed in the third window's array, -/
theorem weights_eq (c : Dev nD) :
    (V m c (Pipeline.arrRef spec0 2) : S64x64.Idx → EReal)
      = transpose S64x64 [1, 0] (m ((c : Thread nD τ).loc main_arg3)) Facts₀.transposes_S64x64_S64x64_1_0 := by
  show (V m c main_call0_v10 : S64x64.Idx → EReal) = _
  dsimp only [Gen.V, Gen.hostOps0]
  after_results
  rfl

/-- and the second weight matrix transposed in the fourth window's. -/
theorem weights'_eq (c : Dev nD) :
    (V m c (Pipeline.arrRef spec0 3) : S64x64.Idx → EReal)
      = transpose S64x64 [1, 0] (m ((c : Thread nD τ).loc main_arg4)) Facts₀.transposes_S64x64_S64x64_1_0 := by
  show (V m c main_call0_v11 : S64x64.Idx → EReal) = _
  dsimp only [Gen.V, Gen.hostOps0]
  after_results
  rfl

/-! ## The result array and the run -/

/-- The aggregated features of the arguments as launched, with this program's dimension records. -/
abbrev aggregated (c : Dev nD) : Nodes :=
  aggregate gather_S50000x64_S1000000x1_S1000000x64_1_0_n_n_0_1_164 scatter_S50000x64_S1000000x1_S1000000x64_1_0_0_1
    Facts₀.bcast_S_S1000000 Facts₀.bcast_S1000000_S1000000x1_0 Facts₀.bcast_S_S50000x64
    (m ((c : Thread nD τ).loc main_arg0)) (m ((c : Thread nD τ).loc main_arg1)) (m ((c : Thread nD τ).loc main_arg2))

/-- After the run the result array is the layer's value of the arguments as launched. -/
theorem final (c : Dev nD) :
    (dats m 0 c).arrAt 4 cfg0.N
      = layer (m ((c : Thread nD τ).loc main_arg0)) (aggregated m c)
          (m ((c : Thread nD τ).loc main_arg3)) (m ((c : Thread nD τ).loc main_arg4)) := by
  rw [final_region, features_eq, aggregated_eq, weights_eq, weights'_eq, layerCols_transpose]

/-- The kernel's run: every weakly fair execution ends with the result array at the layer's value and the arguments
    unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (aggregated m c)
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Gcn.KernelSide

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.ReferenceValue.lean ====
/-
  The reference's result array: the layer's value, of the arguments as launched.

  The reference forms the two products over all 50000 nodes at once, each contracting the features axis of the left
  operand with the SECOND axis of a weight matrix stored output-row first — at node n and output feature o the plain
  sum ∑ q < 64, l (n, q) · w (o, q) —, adds them and clamps below at zero against a broadcast zero. That is the
  layer's value entry by entry, whatever array stands for the aggregated features.
-/
import proofs.«157760_j4303557230928_1_alg».proof.Proof.Gen.ReferenceIdeal.Read
import proofs.«157760_j4303557230928_1_alg».proof.Proof.LibDotRows
import proofs.«157760_j4303557230928_1_alg».proof.Proof.Layer
import proofs.«157760_j4303557230928_1_alg».proof.Proof.Mailbox

noncomputable section

open scoped BigOperators

namespace Cert.Gcn.ReferenceSide

open Cert.ReferenceIdeal Cert.ReferenceIdeal.Gen Idealize.ShloMosaic Idealize.ShloMosaic.ValueIdx

/-- The printed product contracts the features axis of both operands. -/
theorem wholeDot_rowsRows : Cert.Lib.DotRows.RowsRows dot_S50000x64_S64x64_S50000x64_1_1_0_0_n_n :=
  ⟨rfl, rfl, rfl, rfl, rfl, rfl⟩

/-- The reference's last operations, of any aggregated array a, give the layer's value. -/
theorem result_eq (x a : Nodes) (U W : Weights) :
    maximumf (F := Ideal)
        (addf (Host.dotGeneral dot_S50000x64_S64x64_S50000x64_1_1_0_0_n_n none x U)
          (Host.dotGeneral dot_S50000x64_S64x64_S50000x64_1_1_0_0_n_n none a W))
        (broadcastInDim S50000x64 ![] Facts₀.bcast_S_S50000x64 (constant (F := Ideal) S_ .f32 0x00000000#32))
      = layer x a U W := by
  funext i
  have hz : broadcastInDim S50000x64 ![] Facts₀.bcast_S_S50000x64 (constant (F := Ideal) S_ .f32 0x00000000#32) i
      = Ideal.ofBits .f32 0x00000000#32 := Read.val_main_call0_v0_apply (F := Ideal) i
  show max (Host.dotGeneral (F := Ideal) dot_S50000x64_S64x64_S50000x64_1_1_0_0_n_n none x U i
      + Host.dotGeneral (F := Ideal) dot_S50000x64_S64x64_S50000x64_1_1_0_0_n_n none a W i)
      (broadcastInDim S50000x64 ![] Facts₀.bcast_S_S50000x64 (constant (F := Ideal) S_ .f32 0x00000000#32) i) = _
  rw [hz, wholeDot_rowsRows.dotGeneral_apply, wholeDot_rowsRows.dotGeneral_apply, Ideal.ofBits_zero_f32]
  rfl

end Cert.Gcn.ReferenceSide

end
-- ==== Proof.lean ====
/- The proof of `Cert.Claim` (proofs.«157760_j4303557230928_1_alg».proof.Defs): one graph-convolution layer,
   out = relu (x · Uᵀ + a · Wᵀ) with a = segment_sum (x[src], dst), computed by a kernel a block of 5000 nodes at a time
   against the same formula computed over all 50000 nodes at once.

   Both programs compute the aggregated features a with the same host operations, so a is carried as one term that
   is never opened (Proof/Mailbox.lean). The kernel's host operations also transpose the two weight matrices, and its
   body forms rows-by-columns products with them; the reference contracts the second axis of the untransposed
   matrices. At the ideal values both are, at node n and output feature o,

       max ( ∑ q < 64, x (n, q) · U (o, q)  +  ∑ q < 64, a (n, q) · W (o, q) ,  0 )

   (Proof/Layer.lean): the kernel side block by block (Proof/Block.lean, Proof/KernelBlocks.lean: row r of block t is
   node 5000·t + r; Proof/KernelValue.lean: the ten blocks cover the array), the reference side in one step
   (Proof/ReferenceValue.lean). Only re-indexing of finite sums is used; no entry is asked to be finite.

   The three frames are the generated runs; the kernel's idealization rewrote no operation, so `preserves` is `True`. -/
import proofs.«157760_j4303557230928_1_alg».proof.Defs
import proofs.«157760_j4303557230928_1_alg».proof.Proof.Gen.Kernel
import proofs.«157760_j4303557230928_1_alg».proof.Proof.Gen.Kernel.Skeleton
import proofs.«157760_j4303557230928_1_alg».proof.Proof.Gen.Kernel.Launch
import proofs.«157760_j4303557230928_1_alg».proof.Proof.Gen.Kernel.Points
import proofs.«157760_j4303557230928_1_alg».proof.Proof.Gen.Kernel.Frame
import proofs.«157760_j4303557230928_1_alg».proof.Proof.Gen.KernelIdeal
import proofs.«157760_j4303557230928_1_alg».proof.Proof.Gen.KernelIdeal.Skeleton
import proofs.«157760_j4303557230928_1_alg».proof.Proof.Gen.KernelIdeal.Launch
import proofs.«157760_j4303557230928_1_alg».proof.Proof.Gen.KernelIdeal.Points
import proofs.«157760_j4303557230928_1_alg».proof.Proof.Gen.KernelIdeal.Frame
import proofs.«157760_j4303557230928_1_alg».proof.Proof.Gen.ReferenceIdeal
import proofs.«157760_j4303557230928_1_alg».proof.Proof.Gen.KernelIdeal.Value
import proofs.«157760_j4303557230928_1_alg».proof.Proof.Gen.ReferenceIdeal.Run
import proofs.«157760_j4303557230928_1_alg».proof.Proof.Gen.ReferenceIdeal.Read
import proofs.«157760_j4303557230928_1_alg».proof.Proof.Gen.Pre_finite_inputs
import proofs.«157760_j4303557230928_1_alg».proof.Proof.KernelValue
import proofs.«157760_j4303557230928_1_alg».proof.Proof.ReferenceValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the layer's value of the arguments: the kernel's by its value leg, the
    reference's by its run read at the ideal values; the aggregated features are the same term on both sides (the two
    programs' dimension records for the gather and the scatter hold the same numbers). -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (KernelSide.aggregated m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    KernelSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact ReferenceSide.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
